-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S4096x4096 32) (main_arg2 : IVec S4096x4096 32) (main_arg3 : FVec F S4096 .f32) (main_arg4 : FVec F S4096 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg3
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg5
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S4096x1 : Shape := ⟨2, ![4096, 1]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 21
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x4096, .i32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S8192x4096, .f32⟩
  | .hbm, ⟨7, _⟩ => ⟨S8192x4096, .bf16⟩
  | .hbm, ⟨8, _⟩ => ⟨S4096x4096, .f32⟩
  | .hbm, ⟨9, _⟩ => ⟨S4096x4096, .f32⟩
  | .hbm, ⟨10, _⟩ => ⟨S4096x1, .f32⟩
  | .hbm, ⟨11, _⟩ => ⟨S4096x4096, .f32⟩
  | .hbm, ⟨12, _⟩ => ⟨S4096x4096, .f32⟩
  | .hbm, ⟨13, _⟩ => ⟨S4096x1, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .bf16⟩
  | .hbm, ⟨18, _⟩ => ⟨S1x4096, .f32⟩
  | .hbm, ⟨19, _⟩ => ⟨S8192x4096, .f32⟩
  | .hbm, ⟨20, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  bitsLt_bf16_f32 : FTy.bits .bf16 < FTy.bits .f32
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x4096, .i32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096x4096, .f32⟩
  | .hbm, ⟨7, _⟩ => ⟨S4096x4096, .f32⟩
  | .hbm, ⟨8, _⟩ => ⟨S4x2048x4096, .f32⟩
  | .hbm, ⟨9, _⟩ => ⟨S4x2048x4096, .f32⟩
  | .hbm, ⟨10, _⟩ => ⟨S1x1x4096, .f32⟩
  | .hbm, ⟨11, _⟩ => ⟨S4x2048x4096, .f32⟩
  | .hbm, ⟨12, _⟩ => ⟨S4x2048x4096, .f32⟩
  | .hbm, ⟨13, _⟩ => ⟨S1x1x4096, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S1x1x4096, .f32⟩
  | .hbm, ⟨18, _⟩ => ⟨S4x2048x4096, .f32⟩
  | .hbm, ⟨19, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Stored.lean ====
/-
  What one call of the kernel body leaves behind, as values.

  The body keeps a running total in a scratch block. At the first of the four steps along the contracted axis it stores
  the zero block, reads it back, and stores `total + X·Wᵀ` for the current pair of blocks; at a later step it reads what
  the step before left and stores `total + X·Wᵀ`; at the last step it also writes `total + bias` into the output block.
  Each lemma below reads one such stored block back as the pure term of the body's loads: every store covers its whole
  block from the origin, so what is read back is the stored value itself.
-/
import proofs.«126979_j62989990363233_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Stored

open Cert.KernelIdeal Cert.KernelIdeal.Gen

variable {F : FTy → Type} [FloatOps F]

theorem origin : (![0, 0] : Fin 2 → Nat) = fun _ => 0 := funext fun a => by fin_cases a <;> rfl

/-- The first step: the scratch ends at the zero block plus this step's product. -/
theorem scratch_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, harg3.read_unread, harg4.read_unread, View.ld_unit_zero (S := S1024x1024) origin]

/-- A later step that is not the last: the scratch ends at the total the step before left plus this step's product. -/
theorem scratch_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero origin]
  simp only [View.readAt_eq_ld, harg3.read_unread, harg4.read_unread, harg7.read_unread, View.ld_unit_zero (S := S1024x1024) origin]

/-- The last step leaves the scratch at the same sum as any later step. -/
theorem scratch_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg7.read_unread, View.ld_unit_zero (S := S1024x1024) origin]

/-- The last step's output block is that final total with the bias row added to every row. -/
theorem out_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg5.read_unread, harg7.read_unread,
    View.ld_unit_zero (S := S1024x1024) origin, View.ld_unit_zero (S := S1x1024) origin,
    View.readCov_unit_zero (S := S1024x1024) _ origin]

end Cert.KernelIdeal.Stored

end
-- ==== Proof.Payload.lean ====
/-
  The body's three stored values, read at one entry `(p, q)` of a block, on the extended reals.

  The reset value is zero everywhere. The accumulation step adds to the running total at `(p, q)` the product of row `p`
  of the activation block with row `q` of the weight block — both operands are contracted along their last axis, so no
  transpose appears — and a matrix product into a zero accumulator is just that sum. The final value adds entry `q` of
  the one-row bias block to every row.
-/
import proofs.«126979_j62989990363233_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.KernelIdeal.Payload

open Cert.KernelIdeal Cert.KernelIdeal.Gen Idealize.ShloMosaic.ValueIdx

/-- The product's operand indices: output entry `(p, q)` and contracted position `k` read the left operand at `(p, k)`
    and the right operand at `(q, k)`. -/
theorem lhs_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The block product into a zero accumulator at `(p, q)`: `∑ e, X[p, e] · W[q, e]`. -/
theorem product_at (xb wb : FVec Ideal S1024x1024 .bf16) (p q : Fin 1024) :
    matmul dot_S1024x1024_S1024x1024_S1024x1024_1_1_0_0_n_n none xb wb (constant S1024x1024 .f32 0x00000000#32) (ix2 p q)
      = ∑ e : Fin 1024, xb (ix2 p e) * wb (ix2 q e) := by
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact lhs_0 _ _
    | ⟨1, _⟩ => exact (lhs_1 _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact rhs_0 _ _
    | ⟨1, _⟩ => exact (rhs_1 _ _).trans hk)
  rw [el, er]

/-- The reset value is zero at every entry. -/
theorem reset_at (p q : Fin 1024) : k0_pay1 (F := Ideal) (ix2 p q) = 0 := by
  unfold k0_pay1
  simp only [shapeCast_self]
  exact Ideal.ofBits_zero_f32

/-- The accumulation step at `(p, q)`: the total so far plus this pair of blocks' product. -/
theorem step_at (acc : Vec Ideal S1024x1024 .f32) (xb wb : Vec Ideal S1024x1024 .bf16) (p q : Fin 1024) :
    k0_pay2 acc xb wb (ix2 p q) = acc (ix2 p q) + ∑ e : Fin 1024, xb (ix2 p e) * wb (ix2 q e) := by
  unfold k0_pay2
  simp only [shapeCast_self]
  exact congrArg (acc (ix2 p q) + ·) (product_at xb wb p q)

/-- The final value at `(p, q)`: the total plus the bias row's entry `q`. -/
theorem biased_at (tot : Vec Ideal S1024x1024 .f32) (brow : Vec Ideal S1x1024 .f32) (p q : Fin 1024) :
    k0_pay3 tot brow (ix2 p q) = tot (ix2 p q) + brow (ix2 (0 : Fin 1) q) := by
  unfold k0_pay3
  simp only [shapeCast_self]
  exact congrArg (tot (ix2 p q) + ·) (broadcastTo_1b_ab_apply brow broadcasts_S1x1024_S1024x1024 p q)

end Cert.KernelIdeal.Payload

end
-- ==== Proof.SumLaw.lean ====
/-
  The arithmetic that joins the two programs, over the extended reals.

  For one output entry let `x d` be the activation row, `s d` and `u d` the two integer planes' entries (as reals)
  along the contracted axis `d : Fin 4096`, `a` and `b` the two per-column scales, and `β` the bias. One side contracts
  the row against the combined weight `s d · a + u d · b`, one block of 1024 contracted positions at a time, adding each
  block's partial sum to a running total that starts at zero, and adds the bias last; the other side contracts against
  each plane separately and scales afterwards:

      ((((0 + S₀) + S₁) + S₂) + S₃) + β  =  (∑ d, x d · s d) · a + (∑ d, x d · u d) · b + β,
      S_k = ∑ e, x (1024 k + e) · (s (1024 k + e) · a + u (1024 k + e) · b).

  Distributing `x d` over the combined weight and pulling `a`, `b` out of the sums is valid for real numbers; on the
  extended reals it fails at the infinities. So the law is stated for real entries and proved by pushing the coercion
  `ℝ → EReal` outwards until both sides are coercions of reals, where the identity is one of commutative rings.
-/
import Idealize.ShloMosaic.PureOps.Ideal

namespace Cert.DualPlane

open Finset

/-- Position `e` of block `k` of the contracted axis: `1024 k + e`. -/
def col (k : Fin 4) (e : Fin 1024) : Fin 4096 := ⟨1024 * k.val + e.val, by have := k.isLt; have := e.isLt; omega⟩

@[simp] theorem col_val (k : Fin 4) (e : Fin 1024) : (col k e).val = 1024 * k.val + e.val := rfl

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A sum over the contracted axis is the sum of its four blocks' sums: `d = 1024 k + e` is a bijection between
    `Fin 4 × Fin 1024` and `Fin 4096`. -/
theorem sum_blocks {M : Type} [AddCommMonoid M] (g : Fin 4096 → M) :
    ∑ d : Fin 4096, g d = ∑ k : Fin 4, ∑ e : Fin 1024, g (col k e) := by
  rw [← Fintype.sum_prod_type (f := fun p : Fin 4 × Fin 1024 => g (col p.1 p.2))]
  rw [← Equiv.sum_comp (finProdFinEquiv (m := 4) (n := 1024)) g]
  refine Finset.sum_congr rfl fun p _ => congrArg g (Fin.ext ?_)
  simp only [finProdFinEquiv_apply_val, col_val]
  omega

/-- The law over the reals. -/
theorem real_law (x s u : Fin 4096 → ℝ) (a b β : ℝ) :
    ((((0 + ∑ e : Fin 1024, x (col 0 e) * (s (col 0 e) * a + u (col 0 e) * b))
          + ∑ e : Fin 1024, x (col 1 e) * (s (col 1 e) * a + u (col 1 e) * b))
          + ∑ e : Fin 1024, x (col 2 e) * (s (col 2 e) * a + u (col 2 e) * b))
          + ∑ e : Fin 1024, x (col 3 e) * (s (col 3 e) * a + u (col 3 e) * b)) + β
      = (∑ d : Fin 4096, x d * s d) * a + (∑ d : Fin 4096, x d * u d) * b + β := by
  have h : ∀ k : Fin 4, ∑ e : Fin 1024, x (col k e) * (s (col k e) * a + u (col k e) * b)
      = (∑ e : Fin 1024, x (col k e) * s (col k e)) * a + (∑ e : Fin 1024, x (col k e) * u (col k e)) * b := by
    intro k
    rw [Finset.sum_mul, Finset.sum_mul, ← Finset.sum_add_distrib]
    exact Finset.sum_congr rfl fun e _ => by ring
  rw [h 0, h 1, h 2, h 3, sum_blocks (fun d => x d * s d), sum_blocks (fun d => x d * u d),
    Fin.sum_univ_four, Fin.sum_univ_four]
  ring

/-- The law on the extended reals, for real entries: the blockwise contraction against the combined weight, accumulated
    from zero and biased last, is the two separate contractions scaled and added, plus the bias. -/
theorem ereal_law (x s u : Fin 4096 → ℝ) (a b β : ℝ) :
    ((((0 + ∑ e : Fin 1024, (x (col 0 e) : EReal) * ((s (col 0 e) : EReal) * (a : EReal) + (u (col 0 e) : EReal) * (b : EReal)))
          + ∑ e : Fin 1024, (x (col 1 e) : EReal) * ((s (col 1 e) : EReal) * (a : EReal) + (u (col 1 e) : EReal) * (b : EReal)))
          + ∑ e : Fin 1024, (x (col 2 e) : EReal) * ((s (col 2 e) : EReal) * (a : EReal) + (u (col 2 e) : EReal) * (b : EReal)))
          + ∑ e : Fin 1024, (x (col 3 e) : EReal) * ((s (col 3 e) : EReal) * (a : EReal) + (u (col 3 e) : EReal) * (b : EReal))) + (β : EReal)
      = (∑ d : Fin 4096, (x d : EReal) * (s d : EReal)) * (a : EReal) + (∑ d : Fin 4096, (x d : EReal) * (u d : EReal)) * (b : EReal) + (β : EReal) := by
  simp only [← EReal.coe_mul, ← EReal.coe_add, ← coe_sum, ← EReal.coe_zero]
  exact congrArg _ (real_law x s u a b β)

end Cert.DualPlane
-- ==== Proof.Result.lean ====
/-
  What the idealized kernel computes, as one function of the three arrays its region reads.

  The grid has 8 × 4 × 4 points; point `t = 16 i + 4 j + k` multiplies activation block `(i, k)` (1024 rows by 1024
  contracted positions) with weight block `(j, k)` (1024 columns by the same positions) and adds the product to a
  running total kept in a scratch block. The innermost coordinate `k` walks the contracted axis, so four consecutive
  points form one run: the first resets the total to zero, and the fourth adds the bias row and writes output block
  `(i, j)`. Reading the stored blocks back as values (module Stored), and each value at an entry (module Payload), the
  total after step `j` of a run is `(((0 + P₀) + P₁) + …) + P_j` by induction along the run, and what the fourth step
  writes is entry by entry

      ((((0 + P₀) + P₁) + P₂) + P₃) + bias,   P_k = ∑ e, A[r, 1024 k + e] · W[o, 1024 k + e].

  The 32 written blocks tile the output array, so the array ends at that function everywhere; the program then splits
  the array's leading axis back in two.
-/
import proofs.«126979_j62989990363233_1_alg».proof.Proof.Stored
import proofs.«126979_j62989990363233_1_alg».proof.Proof.Payload
import proofs.«126979_j62989990363233_1_alg».proof.Proof.SumLaw
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Result

open Cert.KernelIdeal Cert.KernelIdeal.Gen Idealize.ShloMosaic.ValueIdx Cert.DualPlane

variable (m : (ℓ : Loc nD τ sig) → Buf (Elt Ideal) ℓ) (ρ : Dev nD → PrngReg)

/-- The three input blocks at grid point `t`, at their literal types. -/
abbrev xblk (c : Dev nD) (t : Fin cfg0.N) : Vec Ideal S1024x1024 .bf16 := iblk m c 0 t
abbrev wblk (c : Dev nD) (t : Fin cfg0.N) : Vec Ideal S1024x1024 .bf16 := iblk m c 1 t
abbrev bblk (c : Dev nD) (t : Fin cfg0.N) : Vec Ideal S1x1024 .f32 := iblk m c 2 t

/-- The three arrays the region reads, at their literal types. -/
abbrev actArr (c : Dev nD) : S8192x4096.Idx → EReal := V m c main_v1
abbrev wgtArr (c : Dev nD) : S4096x4096.Idx → EReal := V m c main_v11
abbrev biasArr (c : Dev nD) : S1x4096.Idx → EReal := V m c main_v12

/-- Grid point `t = 16 i + 4 j + k` reads activation block `(i, k)`, weight block `(j, k)`, bias block `(0, j)` and
    writes output block `(i, j)`: decided over the 128 points. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

theorem xblk_at (c : Dev nD) (t : Fin cfg0.N) (p e : Fin 1024) (r : Fin 8192) (d : Fin 4096)
    (hr : r.val = 1024 * (t.val / 16) + p.val) (hd : d.val = 1024 * (t.val % 4) + e.val) :
    xblk m c t (ix2 p e) = actArr m c (ix2 r d) := by
  show iblk m c 0 t (ix2 p e) = V m c main_v1 (ix2 r d)
  unfold iblk
  rw [View.read_apply]
  show V m c main_v1 _ = V m c main_v1 _
  congr 1
  funext a; apply Fin.ext
  obtain ⟨e0, e1, -⟩ := idx_facts t
  match a with
  | ⟨0, _⟩ => show win0_0.index t (0 : Fin 2) * 1024 + 1 * p.val = r.val; omega
  | ⟨1, _⟩ => show win0_0.index t (1 : Fin 2) * 1024 + 1 * e.val = d.val; omega

theorem wblk_at (c : Dev nD) (t : Fin cfg0.N) (q e : Fin 1024) (o d : Fin 4096)
    (ho : o.val = 1024 * (t.val / 4 % 4) + q.val) (hd : d.val = 1024 * (t.val % 4) + e.val) :
    wblk m c t (ix2 q e) = wgtArr m c (ix2 o d) := by
  show iblk m c 1 t (ix2 q e) = V m c main_v11 (ix2 o d)
  unfold iblk
  rw [View.read_apply]
  show V m c main_v11 _ = V m c main_v11 _
  congr 1
  funext a; apply Fin.ext
  obtain ⟨-, -, e2, e3, -⟩ := idx_facts t
  match a with
  | ⟨0, _⟩ => show win0_1.index t (0 : Fin 2) * 1024 + 1 * q.val = o.val; omega
  | ⟨1, _⟩ => show win0_1.index t (1 : Fin 2) * 1024 + 1 * e.val = d.val; omega

theorem bblk_at (c : Dev nD) (t : Fin cfg0.N) (q : Fin 1024) (o : Fin 4096)
    (ho : o.val = 1024 * (t.val / 4 % 4) + q.val) :
    bblk m c t (ix2 (0 : Fin 1) q) = biasArr m c (ix2 (0 : Fin 1) o) := by
  show iblk m c 2 t (ix2 (0 : Fin 1) q) = V m c main_v12 (ix2 (0 : Fin 1) o)
  unfold iblk
  rw [View.read_apply]
  show V m c main_v12 _ = V m c main_v12 _
  congr 1
  funext a; apply Fin.ext
  obtain ⟨-, -, -, -, e4, e5, -⟩ := idx_facts t
  match a with
  | ⟨0, _⟩ => show win0_2.index t (0 : Fin 2) * 1 + 1 * 0 = 0; omega
  | ⟨1, _⟩ => show win0_2.index t (1 : Fin 2) * 1024 + 1 * q.val = o.val; omega

/-! ## The running total, step by step -/

/-- After the first step of a run of four the scratch holds zero plus the first product. -/
theorem scratch_first (c : Dev nD) (t : Fin cfg0.N) (h0 : t.val % 4 = 0) :
    (outsAt0 m c t.val t.isLt).2 = k0_pay2 (k0_pay1 (F := Ideal)) (xblk m c t) (wblk m c t) := by
  have h1 : ¬t.val % 4 = 3 := by omega
  rw [outsAt0_A m c t h0 h1]
  dsimp only
  exact Stored.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- After any later step it holds what the step before left plus this step's product. -/
theorem scratch_next (c : Dev nD) (t : Fin cfg0.N) (h0 : ¬t.val % 4 = 0) :
    (outsAt0 m c t.val t.isLt).2
      = k0_pay2 (outsAt0 m c (t.val - 1) (Nat.lt_of_le_of_lt (Nat.sub_le _ _) t.isLt)).2 (xblk m c t) (wblk m c t) := by
  by_cases h1 : t.val % 4 = 3
  · rw [outsAt0_C m c t h0 h1]
    dsimp only
    exact Stored.scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  · rw [outsAt0_B m c t h0 h1]
    dsimp only
    exact Stored.scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- At the last step the output block is that step's total with the bias row added. -/
theorem out_last (c : Dev nD) (t : Fin cfg0.N) (h0 : ¬t.val % 4 = 0) (h1 : t.val % 4 = 3) :
    (outsAt0 m c t.val t.isLt).1
      = k0_pay3 (k0_pay2 (outsAt0 m c (t.val - 1) (Nat.lt_of_le_of_lt (Nat.sub_le _ _) t.isLt)).2 (xblk m c t) (wblk m c t)) (bblk m c t) := by
  rw [outsAt0_C m c t h0 h1]
  dsimp only
  exact Stored.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- The product of point `n`'s two blocks at entry `(p, q)` (zero past the grid's end, where nothing is asked). -/
def prod (c : Dev nD) (p q : Fin 1024) (n : ℕ) : EReal :=
  if h : n < cfg0.N then ∑ e : Fin 1024, xblk m c ⟨n, h⟩ (ix2 p e) * wblk m c ⟨n, h⟩ (ix2 q e) else 0

/-- The running total at entry `(p, q)` after step `j` of the run that starts at point `b0`. -/
def upTo (c : Dev nD) (p q : Fin 1024) (b0 : ℕ) : ℕ → EReal
  | 0 => 0 + prod m c p q b0
  | j + 1 => upTo c p q b0 j + prod m c p q (b0 + (j + 1))

/-- The scratch after step `j` of a run is the running total: by induction along the run. -/
theorem scratch_entry (c : Dev nD) (p q : Fin 1024) (b0 : ℕ) (hb : b0 % 4 = 0) :
    ∀ (j : ℕ), j ≤ 3 → ∀ (h : b0 + j < cfg0.N), (outsAt0 m c (b0 + j) h).2 (ix2 p q) = upTo m c p q b0 j
  | 0, _, h => by
    rw [show (outsAt0 m c (b0 + 0) h).2 = _ from scratch_first m c ⟨b0, h⟩ hb]
    refine (Payload.step_at _ _ _ p q).trans ?_
    rw [Payload.reset_at]
    show _ = 0 + prod m c p q b0
    unfold prod
    rw [dif_pos (show b0 < cfg0.N from h)]
  | j + 1, hj, h => by
    have hlt : b0 + j < cfg0.N := by omega
    have h0 : ¬(b0 + (j + 1)) % 4 = 0 := by omega
    rw [show (outsAt0 m c (b0 + (j + 1)) h).2 = _ from scratch_next m c ⟨b0 + (j + 1), h⟩ h0]
    refine (Payload.step_at _ _ _ p q).trans ?_
    show (outsAt0 m c (b0 + j) _).2 (ix2 p q) + _ = upTo m c p q b0 j + prod m c p q (b0 + (j + 1))
    rw [scratch_entry c p q b0 hb j (by omega) hlt]
    unfold prod
    rw [dif_pos h]

/-- The output block the last step of a run writes, at entry `(p, q)`. -/
theorem out_entry (c : Dev nD) (p q : Fin 1024) (b0 : ℕ) (hb : b0 % 4 = 0) (h : b0 + 3 < cfg0.N) :
    (outsAt0 m c (b0 + 3) h).1 (ix2 p q) = upTo m c p q b0 3 + bblk m c ⟨b0 + 3, h⟩ (ix2 (0 : Fin 1) q) := by
  have h0 : ¬(b0 + 3) % 4 = 0 := by omega
  have h1 : (b0 + 3) % 4 = 3 := by omega
  rw [show (outsAt0 m c (b0 + 3) h).1 = _ from out_last m c ⟨b0 + 3, h⟩ h0 h1]
  refine (Payload.biased_at _ _ p q).trans ?_
  refine congrArg (· + bblk m c ⟨b0 + 3, h⟩ (ix2 (0 : Fin 1) q)) ?_
  refine (Payload.step_at _ _ _ p q).trans ?_
  show (outsAt0 m c (b0 + 2) _).2 (ix2 p q) + _ = upTo m c p q b0 2 + prod m c p q (b0 + (2 + 1))
  rw [scratch_entry m c p q b0 hb 2 (by omega) (by omega)]
  unfold prod
  rw [dif_pos h]

/-! ## The output array -/

/-- The contraction of row `r` of the activation with row `o` of the weight over block `k` of the contracted axis. -/
def part (A : S8192x4096.Idx → EReal) (W : S4096x4096.Idx → EReal) (r : Fin 8192) (o : Fin 4096) (k : Fin 4) : EReal :=
  ∑ e : Fin 1024, A (ix2 r (col k e)) * W (ix2 o (col k e))

/-- Entry `(r, o)` of the output: the four blocks' contractions added in order to zero, then the bias. -/
def entry (A : S8192x4096.Idx → EReal) (W : S4096x4096.Idx → EReal) (B : S1x4096.Idx → EReal) (r : Fin 8192) (o : Fin 4096) : EReal :=
  ((((0 + part A W r o 0) + part A W r o 1) + part A W r o 2) + part A W r o 3) + B (ix2 (0 : Fin 1) o)

/-- The whole output array as a function of the three arrays the region reads. -/
def whole (A : S8192x4096.Idx → EReal) (W : S4096x4096.Idx → EReal) (B : S1x4096.Idx → EReal) : S8192x4096.Idx → EReal :=
  fun j => entry A W B (j 0) (j 1)

/-- Step `k` of the run from `b0 = 16 i + 4 j` multiplies activation block `(i, k)` with weight block `(j, k)`. -/
theorem prod_eq (c : Dev nD) (p q : Fin 1024) (b0 : ℕ) (hb : b0 % 4 = 0) (k : Fin 4) (h : b0 + k.val < cfg0.N)
    (r : Fin 8192) (o : Fin 4096) (hr : r.val = 1024 * (b0 / 16) + p.val) (ho : o.val = 1024 * (b0 / 4 % 4) + q.val) :
    prod m c p q (b0 + k.val) = part (actArr m c) (wgtArr m c) r o k := by
  have hk := k.isLt
  unfold prod part
  rw [dif_pos h]
  refine Finset.sum_congr rfl fun e _ => ?_
  rw [xblk_at m c ⟨b0 + k.val, h⟩ p e r (col k e) (by show r.val = 1024 * ((b0 + k.val) / 16) + p.val; omega)
      (by show (col k e).val = 1024 * ((b0 + k.val) % 4) + e.val; rw [col_val]; omega),
    wblk_at m c ⟨b0 + k.val, h⟩ q e o (col k e) (by show o.val = 1024 * ((b0 + k.val) / 4 % 4) + q.val; omega)
      (by show (col k e).val = 1024 * ((b0 + k.val) % 4) + e.val; rw [col_val]; omega)]

theorem outsAt0_congr (c : Dev nD) (n n' : ℕ) (e : n = n') (h : n < cfg0.N) (h' : n' < cfg0.N) :
    outsAt0 m c n h = outsAt0 m c n' h' := by subst e; rfl

/-- What a point that writes back leaves in the array is its block of `whole`. -/
theorem flushed_eq (c : Dev nD) (t : Fin cfg0.N) (hf : (cfg0.win 3).flush t = true) :
    (dats m 0 c).flushed 3 t = ((cfg0.win 3).blk t).view.read (Elt Ideal) (whole (actArr m c) (wgtArr m c) (biasArr m c)) := by
  have hN : cfg0.N = 128 := N_0
  have h3 : t.val % 4 = 3 := (flush0_3 t).mp hf
  have ht := t.isLt
  obtain ⟨-, -, -, -, -, -, e6, e7⟩ := idx_facts t
  show (cfg0.win 3).cut (grid0.coords t) ((dats m 0 c).after 3 t) = _
  rw [after0_3]
  funext y
  obtain ⟨p, q, rfl⟩ : ∃ (p q : Fin 1024), y = ix2 p q := ⟨y 0, y 1, eq_ix2 y⟩
  have hp := p.isLt
  have hq := q.isLt
  let r : Fin 8192 := ⟨1024 * (t.val / 16) + p.val, by omega⟩
  let o : Fin 4096 := ⟨1024 * (t.val / 4 % 4) + q.val, by omega⟩
  have hemb : ((cfg0.win 3).blk t).view.emb (ix2 p q) = ix2 r o := by
    funext a; apply Fin.ext
    match a with
    | ⟨0, _⟩ => show win0_3.index t (0 : Fin 2) * 1024 + 1 * p.val = 1024 * (t.val / 16) + p.val; omega
    | ⟨1, _⟩ => show win0_3.index t (1 : Fin 2) * 1024 + 1 * q.val = 1024 * (t.val / 4 % 4) + q.val; omega
  show (outsAt0 m c t.val t.isLt).1 (ix2 p q) = whole (actArr m c) (wgtArr m c) (biasArr m c) (((cfg0.win 3).blk t).view.emb (ix2 p q))
  rw [hemb]
  show _ = entry (actArr m c) (wgtArr m c) (biasArr m c) r o
  have hb : (t.val - 3) % 4 = 0 := by omega
  have hlt : t.val - 3 + 3 < cfg0.N := by omega
  rw [outsAt0_congr m c t.val (t.val - 3 + 3) (by omega) t.isLt hlt, out_entry m c p q (t.val - 3) hb hlt]
  have hr : r.val = 1024 * ((t.val - 3) / 16) + p.val := by show 1024 * (t.val / 16) + p.val = _; omega
  have ho : o.val = 1024 * ((t.val - 3) / 4 % 4) + q.val := by show 1024 * (t.val / 4 % 4) + q.val = _; omega
  show (((0 + prod m c p q (t.val - 3 + (0 : Fin 4).val)) + prod m c p q (t.val - 3 + (1 : Fin 4).val)) + prod m c p q (t.val - 3 + (2 : Fin 4).val))
      + prod m c p q (t.val - 3 + (3 : Fin 4).val) + _ = _
  rw [prod_eq m c p q (t.val - 3) hb 0 (by show t.val - 3 + 0 < cfg0.N; omega) r o hr ho,
    prod_eq m c p q (t.val - 3) hb 1 (by show t.val - 3 + 1 < cfg0.N; omega) r o hr ho,
    prod_eq m c p q (t.val - 3) hb 2 (by show t.val - 3 + 2 < cfg0.N; omega) r o hr ho,
    prod_eq m c p q (t.val - 3) hb 3 (by show t.val - 3 + 3 < cfg0.N; omega) r o hr ho,
    bblk_at m c ⟨t.val - 3 + 3, hlt⟩ q o (by show o.val = 1024 * ((t.val - 3 + 3) / 4 % 4) + q.val; omega)]
  rfl

/-- An index of the output array is in point `t`'s block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v13).slice (win0_3.rect t)).set ↔ _
  rw [View.set_slice_whole, Rect.mem_set_unit]
  exact Iff.rfl

/-- Every entry `(r, o)` lies in the block that the fourth step of the run for output block `(r / 1024, o / 1024)` writes back. -/
theorem covered (i : S8192x4096.Idx) :
    ∃ t : Fin cfg0.N, (cfg0.win 3).flush t = true ∧ i ∈ ((cfg0.win 3).blk t).view.set := by
  have hN : cfg0.N = 128 := N_0
  have hi0 : (i 0).val < 8192 := (i 0).isLt
  have hi1 : (i 1).val < 4096 := (i 1).isLt
  let t : Fin cfg0.N := ⟨16 * ((i 0).val / 1024) + 4 * ((i 1).val / 1024) + 3, by omega⟩
  have htv : t.val = 16 * ((i 0).val / 1024) + 4 * ((i 1).val / 1024) + 3 := rfl
  obtain ⟨-, -, -, -, -, -, e6, e7⟩ := idx_facts t
  refine ⟨t, (flush0_3 t).mpr (by omega), ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The output array after the region is `whole` of the three arrays read. -/
theorem final (c : Dev nD) : (dats m 0 c).arrAt 3 cfg0.N = whole (actArr m c) (wgtArr m c) (biasArr m c) :=
  (dats m 0 c).arrAt_eq_of_cover 3 (whole (actArr m c) (wgtArr m c) (biasArr m c)) (fun t hf => flushed_eq m c t hf) covered

/-- The program's result: the output array with its leading axis split back in two. -/
abbrev result (c : Dev nD) : S4x2048x4096.Idx → EReal :=
  fun j => shapeCast S4x2048x4096 (whole (actArr m c) (wgtArr m c) (biasArr m c)) shapeCasts_S8192x4096_S4x2048x4096 j

theorem tail_eq (c : Dev nD) :
    Pipeline.afterTail₀ cfgs (dats m) 0 (V0 m) [hostOps1] c main_v14 = result m c := by
  unfold Pipeline.afterTail₀
  show StableHlo.after hostOps1 _ (Proc.devRef .tc main_v14) = _
  after_results
  have hw : Pipeline.withArrays (cfgs 0).spec c (V0 m c) (fun w => (dats m 0 c).arrAt w (cfgs 0).N) (Proc.devRef .tc main_v13)
      = whole (actArr m c) (wgtArr m c) (biasArr m c) :=
    (Pipeline.withArrays_arr spec0 launch0.win.arr_inj c _ _ 3).trans (final m c)
  exact funext fun i => congrArg (fun A : S8192x4096.Idx → EReal => shapeCast S4x2048x4096 A shapeCasts_S8192x4096_S4x2048x4096 i) hw

/-- The idealized kernel's run, read: its result at `result`, its arguments unchanged. -/
theorem run : θ_run defs (onTc (τ := τ) (main (F := Ideal))) ⟨m, fun _ => 0, ρ⟩ fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.Operands.lean ====
/-
  The three arrays the kernel region is given, in terms of the program's arguments.

  Before the region the program merges the activation's two leading axes (row `2048 b + s`), forms the combined weight
  `W[o, d] = t1[o, d] · a1[o] + t2[o, d] · a2[o]` from the two integer planes and their per-row factors, and puts a unit
  leading axis on the bias. A change of float format is the identity on the extended reals, so the two narrowing
  conversions leave no trace.
-/
import proofs.«126979_j62989990363233_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.StableHlo

namespace Cert.KernelIdeal.Operands

open Cert.KernelIdeal Cert.KernelIdeal.Gen Idealize.ShloMosaic.ValueIdx

variable (m : (ℓ : Loc nD τ sig) → Buf (Elt Ideal) ℓ)

/-- The six arguments on core `c`, at their literal types. -/
abbrev act (c : Dev nD) : S4x2048x4096.Idx → EReal := m ((c : Thread nD τ).loc main_arg0)
abbrev plane1 (c : Dev nD) : S4096x4096.Idx → BitVec 32 := m ((c : Thread nD τ).loc main_arg1)
abbrev plane2 (c : Dev nD) : S4096x4096.Idx → BitVec 32 := m ((c : Thread nD τ).loc main_arg2)
abbrev scale1 (c : Dev nD) : S4096.Idx → EReal := m ((c : Thread nD τ).loc main_arg3)
abbrev scale2 (c : Dev nD) : S4096.Idx → EReal := m ((c : Thread nD τ).loc main_arg4)
abbrev bias (c : Dev nD) : S4096.Idx → EReal := m ((c : Thread nD τ).loc main_arg5)

theorem act_eq (c : Dev nD) : (V m c main_v1 : S8192x4096.Idx → EReal)
    = fun j => shapeCast S8192x4096 (act m c) shapeCasts_S4x2048x4096_S8192x4096 j := by
  show StableHlo.after hostOps0 (fun b => m (c, b)) (Proc.devRef .tc main_v1) = _
  after_results
  rfl

theorem weight_eq (c : Dev nD) : (V m c main_v11 : S4096x4096.Idx → EReal)
    = addf (F := Ideal) (mulf (F := Ideal) (sitofp (F := Ideal) .f32 (plane1 m c)) (broadcastInDim S4096x4096 ![0, 1] bcast_S4096x1_S4096x4096_0_1 (broadcastInDim S4096x1 ![0] bcast_S4096_S4096x1_0 (scale1 m c))))
        (mulf (F := Ideal) (sitofp (F := Ideal) .f32 (plane2 m c)) (broadcastInDim S4096x4096 ![0, 1] bcast_S4096x1_S4096x4096_0_1 (broadcastInDim S4096x1 ![0] bcast_S4096_S4096x1_0 (scale2 m c)))) := by
  show StableHlo.after hostOps0 (fun b => m (c, b)) (Proc.devRef .tc main_v11) = _
  after_results
  rfl

theorem bias_eq (c : Dev nD) : (V m c main_v12 : S1x4096.Idx → EReal)
    = fun j => shapeCast S1x4096 (bias m c) shapeCasts_S4096_S1x4096 j := by
  show StableHlo.after hostOps0 (fun b => m (c, b)) (Proc.devRef .tc main_v12) = _
  after_results
  rfl

/-- The activation the kernel is given is the argument with its two leading axes merged: row `2048 b + s`. -/
theorem act_at (c : Dev nD) (b : Fin 4) (s : Fin 2048) (d : Fin 4096) (r : Fin 8192) (hr : r.val = 2048 * b.val + s.val) :
    (V m c main_v1 : S8192x4096.Idx → EReal) (ix2 r d) = act m c (ix3 b s d) := by
  rw [act_eq]
  refine shapeCast_apply _ _ _ _ ?_
  rw [Shape.rowMajor_val_two, Shape.rowMajor_val_three]
  show (b.val * 2048 + s.val) * 4096 + d.val = r.val * 4096 + d.val
  rw [hr]; ring

/-- The weight the kernel is given: the two planes' entries scaled by their rows' factors and added. -/
theorem weight_at (c : Dev nD) (o d : Fin 4096) :
    (V m c main_v11 : S4096x4096.Idx → EReal) (ix2 o d)
      = (((plane1 m c (ix2 o d)).toInt : ℝ) : EReal) * scale1 m c (ix1 o) + (((plane2 m c (ix2 o d)).toInt : ℝ) : EReal) * scale2 m c (ix1 o) := by
  rw [weight_eq]
  have hb : ∀ v : S4096.Idx → EReal,
      broadcastInDim S4096x4096 ![0, 1] bcast_S4096x1_S4096x4096_0_1 (broadcastInDim S4096x1 ![0] bcast_S4096_S4096x1_0 v) (ix2 o d) = v (ix1 o) := by
    intro v
    refine (broadcastInDim_apply _ bcast_S4096x1_S4096x4096_0_1 _ (ix2 o d) (ix2 o (0 : Fin 1)) (fun a => match a with
      | ⟨0, _⟩ => by show o.val = if (4096 : Nat) = 1 then 0 else o.val; rw [if_neg (by decide)]
      | ⟨1, _⟩ => by show 0 = if (1 : Nat) = 1 then 0 else d.val; rw [if_pos rfl])).trans ?_
    exact broadcastInDim_apply _ bcast_S4096_S4096x1_0 v (ix2 o (0 : Fin 1)) (ix1 o) (fun a => match a with
      | ⟨0, _⟩ => by show o.val = if (4096 : Nat) = 1 then 0 else o.val; rw [if_neg (by decide)])
  show (sitofp (F := Ideal) .f32 (plane1 m c) (ix2 o d)) * _ + (sitofp (F := Ideal) .f32 (plane2 m c) (ix2 o d)) * _ = _
  rw [hb, hb]
  rfl

/-- The bias row the kernel is given is the bias argument under a unit leading axis. -/
theorem bias_at (c : Dev nD) (o : Fin 4096) :
    (V m c main_v12 : S1x4096.Idx → EReal) (ix2 (0 : Fin 1) o) = bias m c (ix1 o) := by
  rw [bias_eq]
  exact shapeCast_a_1a_apply _ _ _ _

end Cert.KernelIdeal.Operands

end
-- ==== Proof.Joined.lean ====
/-
  The kernel's result and the reference's result are one function of the arguments.

  Entry `(b, s, o)` of the kernel's result is entry `(2048 b + s, o)` of its output array: the blockwise contraction of
  the activation row with the combined weight row `t1[o, ·] · a1[o] + t2[o, ·] · a2[o]`, accumulated from zero, plus the
  bias. The reference's entry is the two planes' contractions scaled separately, added, plus the bias. For real
  activations, scales and bias (the precondition) the two agree by the law of module SumLaw.
-/
import proofs.«126979_j62989990363233_1_alg».proof.Proof.Result
import proofs.«126979_j62989990363233_1_alg».proof.Proof.Operands
import proofs.«126979_j62989990363233_1_alg».proof.Proof.SumLaw

set_option maxRecDepth 16384

noncomputable section

open Idealize.ShloMosaic Idealize.ShloMosaic.TcCoe Idealize.SL.Sem

namespace Cert.KernelIdeal.Joined

open Cert.KernelIdeal Cert.KernelIdeal.Gen Cert.KernelIdeal.Result Cert.KernelIdeal.Operands Idealize.ShloMosaic.ValueIdx Cert.DualPlane

variable (m : (ℓ : Loc nD τ sig) → Buf (Elt Ideal) ℓ)

/-- The kernel's result at `(b, s, o)`, for real float arguments, in the reference's form. -/
theorem result_at (c : Dev nD) (b : Fin 4) (s : Fin 2048) (o : Fin 4096)
    (hx : ∀ i, ∃ r : ℝ, act m c i = (r : EReal)) (h1 : ∀ i, ∃ r : ℝ, scale1 m c i = (r : EReal))
    (h2 : ∀ i, ∃ r : ℝ, scale2 m c i = (r : EReal)) (hb : ∀ i, ∃ r : ℝ, bias m c i = (r : EReal)) :
    result m c (ix3 b s o)
      = (∑ d : Fin 4096, act m c (ix3 b s d) * (((plane1 m c (ix2 o d)).toInt : ℝ) : EReal)) * scale1 m c (ix1 o)
        + (∑ d : Fin 4096, act m c (ix3 b s d) * (((plane2 m c (ix2 o d)).toInt : ℝ) : EReal)) * scale2 m c (ix1 o)
        + bias m c (ix1 o) := by
  have hs := s.isLt
  have hbl := b.isLt
  let r : Fin 8192 := ⟨2048 * b.val + s.val, by omega⟩
  have e1 : result m c (ix3 b s o) = whole (actArr m c) (wgtArr m c) (biasArr m c) (ix2 r o) := by
    refine shapeCast_apply _ _ _ _ ?_
    rw [Shape.rowMajor_val_two, Shape.rowMajor_val_three]
    show (2048 * b.val + s.val) * 4096 + o.val = (b.val * 2048 + s.val) * 4096 + o.val
    ring
  rw [e1]
  show entry (actArr m c) (wgtArr m c) (biasArr m c) r o = _
  unfold entry part
  simp only [show ∀ d, actArr m c (ix2 r d) = act m c (ix3 b s d) from fun d => act_at m c b s d r rfl,
    show ∀ d, wgtArr m c (ix2 o d) = _ from fun d => weight_at m c o d,
    show biasArr m c (ix2 (0 : Fin 1) o) = _ from bias_at m c o]
  choose xr hxr using fun d => hx (ix3 b s d)
  obtain ⟨a, ha⟩ := h1 (ix1 o)
  obtain ⟨a', ha'⟩ := h2 (ix1 o)
  obtain ⟨β, hβ⟩ := hb (ix1 o)
  simp only [hxr, ha, ha', hβ]
  exact ereal_law xr (fun d => ((plane1 m c (ix2 o d)).toInt : ℝ)) (fun d => ((plane2 m c (ix2 o d)).toInt : ℝ)) a a' β

end Cert.KernelIdeal.Joined

end
-- ==== Proof.RefEntry.lean ====
/-
  The reference program's result, read at one entry.

  The reference converts the two integer planes to floats, contracts the activation against each along the last axis,
  scales each contraction by its per-column factor, adds the two and adds the bias. At an entry `(b, s, o)` and on the
  extended reals this is

      (∑ d, x[b,s,d] · t1[o,d]) · a1[o] + (∑ d, x[b,s,d] · t2[o,d]) · a2[o] + bias[o],

  an integer word standing for the real number it denotes read signed.
-/
import proofs.«126979_j62989990363233_1_alg».proof.Proof.Gen.ReferenceIdeal.Read
import Idealize.ShloMosaic.Lib.ValueIdx
import Idealize.ShloMosaic.PureOps.Ideal.Laws

noncomputable section

open Idealize.ShloMosaic Idealize.ShloMosaic.TcCoe Idealize.SL.Sem

namespace Cert.ReferenceIdeal.Entry

open Cert.ReferenceIdeal Cert.ReferenceIdeal.Gen Cert.ReferenceIdeal.Read Idealize.ShloMosaic.ValueIdx

/-- The word of an integer plane as the real it denotes. -/
abbrev plane (t : S4096x4096.Idx → BitVec 32) (o d : Fin 4096) : EReal := (((t (ix2 o d)).toInt : ℝ) : EReal)

theorem lidx2 (b : Fin 4) (s : Fin 2048) (o k : Fin 4096) : lidx_main_v2 (ix3 b s o) k = ix3 b s k :=
  funext fun a => Fin.ext (by match a with | ⟨0, _⟩ => rfl | ⟨1, _⟩ => rfl | ⟨2, _⟩ => rfl)
theorem ridx2 (b : Fin 4) (s : Fin 2048) (o k : Fin 4096) : ridx_main_v2 (ix3 b s o) k = ix2 o k :=
  funext fun a => Fin.ext (by match a with | ⟨0, _⟩ => rfl | ⟨1, _⟩ => rfl)
theorem lidx3 (b : Fin 4) (s : Fin 2048) (o k : Fin 4096) : lidx_main_v3 (ix3 b s o) k = ix3 b s k :=
  funext fun a => Fin.ext (by match a with | ⟨0, _⟩ => rfl | ⟨1, _⟩ => rfl | ⟨2, _⟩ => rfl)
theorem ridx3 (b : Fin 4) (s : Fin 2048) (o k : Fin 4096) : ridx_main_v3 (ix3 b s o) k = ix2 o k :=
  funext fun a => Fin.ext (by match a with | ⟨0, _⟩ => rfl | ⟨1, _⟩ => rfl)
theorem col5 (b : Fin 4) (s : Fin 2048) (o : Fin 4096) : idx_main_v4 (idx_main_v5 (ix3 b s o)) = ix1 o :=
  funext fun a => Fin.ext (by match a with | ⟨0, _⟩ => rfl)
theorem col8 (b : Fin 4) (s : Fin 2048) (o : Fin 4096) : idx_main_v7 (idx_main_v8 (ix3 b s o)) = ix1 o :=
  funext fun a => Fin.ext (by match a with | ⟨0, _⟩ => rfl)
theorem col12 (b : Fin 4) (s : Fin 2048) (o : Fin 4096) : idx_main_v11 (idx_main_v12 (ix3 b s o)) = ix1 o :=
  funext fun a => Fin.ext (by match a with | ⟨0, _⟩ => rfl)

/-- The reference's result at `(b, s, o)`: the two contractions, scaled, added, biased. -/
theorem result_at (x : S4x2048x4096.Idx → EReal) (t1 t2 : S4096x4096.Idx → BitVec 32) (a1 a2 bias : S4096.Idx → EReal)
    (b : Fin 4) (s : Fin 2048) (o : Fin 4096) :
    val_main_v13 (F := Ideal) x t1 t2 a1 a2 bias (ix3 b s o)
      = (∑ d : Fin 4096, x (ix3 b s d) * plane t1 o d) * a1 (ix1 o)
        + (∑ d : Fin 4096, x (ix3 b s d) * plane t2 o d) * a2 (ix1 o) + bias (ix1 o) := by
  rw [val_main_v13_apply, val_main_v10_apply, val_main_v6_apply, val_main_v9_apply, val_main_v2_apply, val_main_v3_apply,
    val_main_v5_apply, val_main_v4_apply, val_main_v8_apply, val_main_v7_apply, val_main_v12_apply, val_main_v11_apply]
  simp only [val_main_v0_apply, val_main_v1_apply, lidx2, ridx2, lidx3, ridx3, col5, col8, col12, Ideal.addf_def, Ideal.mulf_def]
  rfl

end Cert.ReferenceIdeal.Entry

end
-- ==== Proof.Reals.lean ====
/-
  What the precondition gives: every float input is a real number.

  The precondition is a conjunction of four `all |v| < +∞` tests, one per float input, each a reduction by `and` of the
  elementwise comparison into a single truth value. If the conjunction is true every comparison is true at every
  index; and an extended real whose absolute value `max v (-v)` is strictly below `+∞` is neither infinity, so it is the
  image of a real number. This is what lets the products and sums of the two programs be rearranged.
-/
import proofs.«126979_j62989990363233_1_alg».proof.Pre_finite_inputs
import proofs.«126979_j62989990363233_1_alg».proof.Proof.Gen.Pre_finite_inputs
import Idealize.ShloMosaic.Lib.ReduceAll
import Idealize.ShloMosaic.Lib.ValueIdx
import Idealize.ShloMosaic.PureOps.Ideal.Laws

noncomputable section

open Idealize.ShloMosaic Idealize.ShloMosaic.TcCoe Idealize.SL.Sem

namespace Cert.Pre_finite_inputs.Reals

open Cert.Pre_finite_inputs Cert.Pre_finite_inputs.Gen

instance : Subsingleton S_.Idx := ⟨fun a b => funext fun d => d.elim0⟩

/-- An extended real whose absolute value compares below the pattern of `+∞` is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot =>
    change BitVec.ofBool (decide (max (⊥ : EReal) (-⊥) < ⊤)) = 1#1 at h
    simp at h
  | top =>
    change BitVec.ofBool (decide (max (⊤ : EReal) (-⊤) < ⊤)) = 1#1 at h
    simp at h
  | coe r => exact ⟨r, rfl⟩

/-- Under the precondition the activation and the three float vectors are real at every index. -/
theorem of_pre {x : FVec Ideal S4x2048x4096 .f32} {t1 t2 : IVec S4096x4096 32} {a1 a2 b : FVec Ideal S4096 .f32}
    (h : fn (F := Ideal) x t1 t2 a1 a2 b = fun _ => 1#1) :
    (∀ i, ∃ r : ℝ, x i = (r : EReal)) ∧ (∀ i, ∃ r : ℝ, a1 i = (r : EReal)) ∧ (∀ i, ∃ r : ℝ, a2 i = (r : EReal))
      ∧ (∀ i, ∃ r : ℝ, b i = (r : EReal)) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => real_of_abs_lt _ (Host.reduce_andi_all _ _ _ _ _ h1 i), fun i => real_of_abs_lt _ (Host.reduce_andi_all _ _ _ _ _ h2 i),
    fun i => real_of_abs_lt _ (Host.reduce_andi_all _ _ _ _ _ h3 i), fun i => real_of_abs_lt _ (Host.reduce_andi_all _ _ _ _ _ h4 i)⟩

end Cert.Pre_finite_inputs.Reals

end
-- ==== Proof.lean ====
/-
  The certificate's claims, assembled.

  Kernel: `y = x₂ · Wᵀ + bias` with the combined weight `W[o, d] = t1[o, d] · a1[o] + t2[o, d] · a2[o]` formed once outside
  the tiled product, `x₂` the activation with its two leading axes merged. Reference:
  `y = (x · t1ᵀ) · a1 + (x · t2ᵀ) · a2 + bias`. Over the extended reals, for finite float inputs, these are one function:
  the integer planes denote reals, so every entry is a finite sum of real products, where multiplication distributes
  over addition and the per-column factors leave the sums (module SumLaw). The kernel's side is read off its generated
  frame run (modules Stored, Payload, Result, Operands), the reference's off its generated run (module RefEntry), and
  module Joined equates them entry by entry; module Reals turns the precondition into "every float entry is real".
  The three frames are the generated ones (the reference's is its run with the result forgotten), and the idealization
  rewrote nothing, so there is nothing to preserve.
-/
import proofs.«126979_j62989990363233_1_alg».proof.Defs
import proofs.«126979_j62989990363233_1_alg».proof.Proof.Gen.Kernel
import proofs.«126979_j62989990363233_1_alg».proof.Proof.Gen.Kernel.Skeleton
import proofs.«126979_j62989990363233_1_alg».proof.Proof.Gen.Kernel.Launch
import proofs.«126979_j62989990363233_1_alg».proof.Proof.Gen.Kernel.Points
import proofs.«126979_j62989990363233_1_alg».proof.Proof.Gen.Kernel.Frame
import proofs.«126979_j62989990363233_1_alg».proof.Proof.Gen.KernelIdeal
import proofs.«126979_j62989990363233_1_alg».proof.Proof.Gen.KernelIdeal.Skeleton
import proofs.«126979_j62989990363233_1_alg».proof.Proof.Gen.KernelIdeal.Launch
import proofs.«126979_j62989990363233_1_alg».proof.Proof.Gen.KernelIdeal.Points
import proofs.«126979_j62989990363233_1_alg».proof.Proof.Gen.KernelIdeal.Frame
import proofs.«126979_j62989990363233_1_alg».proof.Proof.Gen.ReferenceIdeal
import proofs.«126979_j62989990363233_1_alg».proof.Proof.Gen.ReferenceIdeal.Run
import proofs.«126979_j62989990363233_1_alg».proof.Proof.Gen.ReferenceIdeal.Read
import proofs.«126979_j62989990363233_1_alg».proof.Proof.Gen.Pre_finite_inputs
import proofs.«126979_j62989990363233_1_alg».proof.Proof.Joined
import proofs.«126979_j62989990363233_1_alg».proof.Proof.RefEntry
import proofs.«126979_j62989990363233_1_alg».proof.Proof.Reals
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the same result: the kernel's array function, which for real inputs is the reference's. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [e0, e1, e2, e3, e4, e5, Cert.ReferenceIdeal.Read.val_main_v13_eq]
  obtain ⟨hx, h1, h2, hb⟩ := Cert.Pre_finite_inputs.Reals.of_pre (hpre c)
  funext i
  obtain ⟨b, s, o, rfl⟩ : ∃ (b : Fin 4) (s : Fin 2048) (o : Fin 4096), i = ix3 b s o := ⟨i 0, i 1, i 2, eq_ix3 i⟩
  rw [Cert.ReferenceIdeal.Entry.result_at]
  exact (Cert.KernelIdeal.Joined.result_at m c b s o hx h1 h2 hb).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
